-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S128x1 .f32) (main_arg9 : FVec F S1 .f32) (main_v33 : IVec S_ 1) : IVec S_ 1 :=
  let main_v34 : FVec F S128x1 .f32 := Host.absf main_arg8
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S64 .f32) (main_arg6 : FVec F S128x1 .f32) (main_arg7 : FVec F S1 .f32) (main_arg8 : FVec F S128x1 .f32) (main_arg9 : FVec F S1 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x1 .f32 := Host.absf main_arg6
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S128x64 .f32) (main_arg3 : FVec F S64 .f32) (main_arg4 : FVec F S128x64 .f32) (main_arg5 : FVec F S64 .f32) (main_arg6 : FVec F S128x1 .f32) (main_arg7 : FVec F S1 .f32) (main_arg8 : FVec F S128x1 .f32) (main_arg9 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S128x1 : Shape := ⟨2, ![128, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S128x128 : Shape := ⟨2, ![128, 128]⟩
abbrev S128 : Shape := ⟨1, ![128]⟩
abbrev S1x128 : Shape := ⟨2, ![1, 128]⟩
abbrev S5000x128 : Shape := ⟨2, ![5000, 128]⟩
abbrev S100000x64 : Shape := ⟨2, ![100000, 64]⟩
abbrev S1700000x64 : Shape := ⟨2, ![1700000, 64]⟩
abbrev S1x64 : Shape := ⟨2, ![1, 64]⟩
abbrev S128x2 : Shape := ⟨2, ![128, 2]⟩
abbrev S2 : Shape := ⟨1, ![2]⟩
abbrev S128x126 : Shape := ⟨2, ![128, 126]⟩
abbrev S126 : Shape := ⟨1, ![126]⟩
abbrev S100000x1 : Shape := ⟨2, ![100000, 1]⟩
abbrev S1x1 : Shape := ⟨2, ![1, 1]⟩

abbrev nBuf : Space → Nat
  | .hbm => 115
  | .vmem => 12
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S128x64, .f32⟩
  | .hbm, ⟨5, _⟩ => ⟨S64, .f32⟩
  | .hbm, ⟨6, _⟩ => ⟨S128x1, .f32⟩
  | .hbm, ⟨7, _⟩ => ⟨S1, .f32⟩
  | .hbm, ⟨8, _⟩ => ⟨S128x1, .f32⟩
  | .hbm, ⟨9, _⟩ => ⟨S1, .f32⟩
  | .hbm, ⟨10, _⟩ => ⟨S100000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S1x1600000, .i32⟩
  | .hbm, ⟨15, _⟩ => ⟨S1600000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S128x128, .f32⟩
  | .hbm, ⟨51, _⟩ => ⟨S_, .f32⟩
  | .hbm, ⟨52, _⟩ => ⟨S64, .f32⟩
  | .hbm, ⟨53, _⟩ => ⟨S128, .f32⟩
  | .hbm, ⟨54, _⟩ => ⟨S1x128, .f32⟩
  | .hbm, ⟨55, _⟩ => ⟨S100000x128, .f32⟩
  | .hbm, ⟨56, _⟩ => ⟨S100000x64, .f32⟩
  | .hbm, ⟨57, _⟩ => ⟨S100000x64, .f32⟩
  | .hbm, ⟨58, _⟩ => ⟨S_, .i32⟩
  | .hbm, ⟨59, _⟩ => ⟨S1700000, .i32⟩
  | .hbm, ⟨60, _⟩ => ⟨S1700000, .i1⟩
  | .hbm, ⟨61, _⟩ => ⟨S_, .i32⟩
  | .hbm, ⟨62, _⟩ => ⟨S1700000, .i32⟩
  | .hbm, ⟨63, _⟩ => ⟨S1700000, .i32⟩
  | .hbm, ⟨64, _⟩ => ⟨S1700000, .i32⟩
  | .hbm, ⟨65, _⟩ => ⟨S1700000x1, .i32⟩
  | .hbm, ⟨66, _⟩ => ⟨S1700000x64, .f32⟩
  | .hbm, ⟨67, _⟩ => ⟨S1700000x1, .f32⟩
  | .hbm, ⟨68, _⟩ => ⟨S1700000x64, .f32⟩
  | .hbm, ⟨69, _⟩ => ⟨S1700000x64, .f32⟩
  | .hbm, ⟨70, _⟩ => ⟨S_, .f32⟩
  | .hbm, ⟨71, _⟩ => ⟨S100000x64, .f32⟩
  | .hbm, ⟨72, _⟩ => ⟨S1700000x1, .i32⟩
  | .hbm, ⟨73, _⟩ => ⟨S100000x64, .f32⟩
  | .hbm, ⟨74, _⟩ => ⟨S1x64, .f32⟩
  | .hbm, ⟨75, _⟩ => ⟨S100000x64, .f32⟩
  | .hbm, ⟨76, _⟩ => ⟨S100000x64, .f32⟩
  | .hbm, ⟨77, _⟩ => ⟨S100000x128, .f32⟩
  | .hbm, ⟨78, _⟩ => ⟨S_, .f32⟩
  | .hbm, ⟨79, _⟩ => ⟨S100000x128, .f32⟩
  | .hbm, ⟨80, _⟩ => ⟨S100000x128, .f32⟩
  | .hbm, ⟨81, _⟩ => ⟨S128x2, .f32⟩
  | .hbm, ⟨82, _⟩ => ⟨S_, .f32⟩
  | .hbm, ⟨83, _⟩ => ⟨S1, .f32⟩
  | .hbm, ⟨84, _⟩ => ⟨S2, .f32⟩
  | .hbm, ⟨85, _⟩ => ⟨S_, .f32⟩
  | .hbm, ⟨86, _⟩ => ⟨S128x126, .f32⟩
  | .hbm, ⟨87, _⟩ => ⟨S128x128, .f32⟩
  | .hbm, ⟨88, _⟩ => ⟨S_, .f32⟩
  | .hbm, ⟨89, _⟩ => ⟨S126, .f32⟩
  | .hbm, ⟨90, _⟩ => ⟨S128, .f32⟩
  | .hbm, ⟨91, _⟩ => ⟨S1x128, .f32⟩
  | .hbm, ⟨92, _⟩ => ⟨S100000x128, .f32⟩
  | .hbm, ⟨93, _⟩ => ⟨S100000x1, .f32⟩
  | .hbm, ⟨94, _⟩ => ⟨S100000x1, .f32⟩
  | .hbm, ⟨95, _⟩ => ⟨S_, .i32⟩
  | .hbm, ⟨96, _⟩ => ⟨S1700000, .i32⟩
  | .hbm, ⟨97, _⟩ => ⟨S1700000, .i1⟩
  | .hbm, ⟨98, _⟩ => ⟨S_, .i32⟩
  | .hbm, ⟨99, _⟩ => ⟨S1700000, .i32⟩
  | .hbm, ⟨100, _⟩ => ⟨S1700000, .i32⟩
  | .hbm, ⟨101, _⟩ => ⟨S1700000, .i32⟩
  | .hbm, ⟨102, _⟩ => ⟨S1700000x1, .i32⟩
  | .hbm, ⟨103, _⟩ => ⟨S1700000x1, .f32⟩
  | .hbm, ⟨104, _⟩ => ⟨S1700000x1, .f32⟩
  | .hbm, ⟨105, _⟩ => ⟨S1700000x1, .f32⟩
  | .hbm, ⟨106, _⟩ => ⟨S_, .f32⟩
  | .hbm, ⟨107, _⟩ => ⟨S100000x1, .f32⟩
  | .hbm, ⟨108, _⟩ => ⟨S1700000x1, .i32⟩
  | .hbm, ⟨109, _⟩ => ⟨S100000x1, .f32⟩
  | .hbm, ⟨110, _⟩ => ⟨S1x1, .f32⟩
  | .hbm, ⟨111, _⟩ => ⟨S100000x1, .f32⟩
  | .hbm, ⟨112, _⟩ => ⟨S100000x1, .f32⟩
  | .hbm, ⟨113, _⟩ => ⟨S100000x1, .f32⟩
  | .hbm, ⟨114, _⟩ => ⟨S100000, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_6 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_c_7 : Ref sig .tc := ⟨.hbm, 58, rfl⟩
abbrev main_v37 : Ref sig .tc := ⟨.hbm, 59, rfl⟩
abbrev main_v38 : Ref sig .tc := ⟨.hbm, 60, rfl⟩
abbrev main_c_8 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_9 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_call1_cst : Ref sig .tc := ⟨.hbm, 78, rfl⟩
abbrev main_call1_v0 : Ref sig .tc := ⟨.hbm, 79, rfl⟩
abbrev main_v54 : Ref sig .tc := ⟨.hbm, 80, rfl⟩
abbrev main_v55 : Ref sig .tc := ⟨.hbm, 81, rfl⟩
abbrev main_cst_10 : Ref sig .tc := ⟨.hbm, 82, rfl⟩
abbrev main_v56 : Ref sig .tc := ⟨.hbm, 83, rfl⟩
abbrev main_v57 : Ref sig .tc := ⟨.hbm, 84, rfl⟩
abbrev main_cst_11 : Ref sig .tc := ⟨.hbm, 85, rfl⟩
abbrev main_v58 : Ref sig .tc := ⟨.hbm, 86, rfl⟩
abbrev main_v59 : Ref sig .tc := ⟨.hbm, 87, rfl⟩
abbrev main_cst_12 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_c_13 : Ref sig .tc := ⟨.hbm, 95, rfl⟩
abbrev main_v66 : Ref sig .tc := ⟨.hbm, 96, rfl⟩
abbrev main_v67 : Ref sig .tc := ⟨.hbm, 97, rfl⟩
abbrev main_c_14 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_15 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  concatenates_S128x64_S128x64_S128x128_d1 : Shape.Concatenates [S128x64, S128x64] S128x128 1
  bcast_S_S64 : S_.BroadcastsInDim S64 (![] : Fin 0 → Fin S64.rank)
  concatenates_S64_S64_S128_d0 : Shape.Concatenates [S64, S64] S128 0
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S100000x128_S100000x64_0_0 : S100000x128.Slices ![0, 0] S100000x64
  slices_S100000x128_S100000x64_0_64 : S100000x128.Slices ![0, 64] S100000x64
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  concatenates_S100000x64_S100000x64_S100000x128_d1 : Shape.Concatenates [S100000x64, S100000x64] S100000x128 1
  bcast_S_S100000x128 : S_.BroadcastsInDim S100000x128 (![] : Fin 0 → Fin S100000x128.rank)
  concatenates_S128x1_S128x1_S128x2_d1 : Shape.Concatenates [S128x1, S128x1] S128x2 1
  bcast_S_S1 : S_.BroadcastsInDim S1 (![] : Fin 0 → Fin S1.rank)
  concatenates_S1_S1_S2_d0 : Shape.Concatenates [S1, S1] S2 0
  bcast_S_S128x126 : S_.BroadcastsInDim S128x126 (![] : Fin 0 → Fin S128x126.rank)
  concatenates_S128x2_S128x126_S128x128_d1 : Shape.Concatenates [S128x2, S128x126] S128x128 1
  bcast_S_S126 : S_.BroadcastsInDim S126 (![] : Fin 0 → Fin S126.rank)
  concatenates_S2_S126_S128_d0 : Shape.Concatenates [S2, S126] S128 0
  shapeCasts_S5000x128_S5000x128 : S5000x128.ShapeCasts S5000x128
  slices_S100000x128_S100000x1_0_0 : S100000x128.Slices ![0, 0] S100000x1
  slices_S100000x128_S100000x1_0_1 : S100000x128.Slices ![0, 1] S100000x1
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  gather_S100000x1_S1700000x1_S1700000x1_1_0_n_n_0_1_11_wf : GatherDims.WF S100000x1 S1700000x1 S1700000x1 [1] [0] [] [0] [] 1 ![1, 1]
  scatter_S100000x1_S1700000x1_S1700000x1_1_0_0_1_wf : ScatterDims.WF S100000x1 S1700000x1 S1700000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def gather_S100000x1_S1700000x1_S1700000x1_1_0_n_n_0_1_11 : GatherDims S100000x1 S1700000x1 S1700000x1 where
  offsetDims := [1]
  collapsedSliceDims := [0]
  operandBatchingDims := []
  startIndicesBatchingDims := []
  startIndexMap := [0]
  indexVectorDim := 1
  sliceSizes := ![1, 1]
  wf := gather_S100000x1_S1700000x1_S1700000x1_1_0_n_n_0_1_11_wf
def scatter_S100000x1_S1700000x1_S1700000x1_1_0_0_1 : ScatterDims S100000x1 S1700000x1 S1700000x1 where
  updateWindowDims := [1]
  insertedWindowDims := [0]
  scatterDimsToOperandDims := [0]
  indexVectorDim := 1
  wf := scatter_S100000x1_S1700000x1_S1700000x1_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v34) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v54) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v59) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v62) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v63) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S128x1 : Shape := ⟨2, ![128, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x1 : Shape := ⟨2, ![100000, 1]⟩
abbrev S1x1 : Shape := ⟨2, ![1, 1]⟩

abbrev nBuf : Space → Nat
  | .hbm => 103
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S128x64, .f32⟩
  | .hbm, ⟨5, _⟩ => ⟨S64, .f32⟩
  | .hbm, ⟨6, _⟩ => ⟨S128x1, .f32⟩
  | .hbm, ⟨7, _⟩ => ⟨S1, .f32⟩
  | .hbm, ⟨8, _⟩ => ⟨S128x1, .f32⟩
  | .hbm, ⟨9, _⟩ => ⟨S1, .f32⟩
  | .hbm, ⟨10, _⟩ => ⟨S100000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S1x1600000, .i32⟩
  | .hbm, ⟨15, _⟩ => ⟨S1600000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S100000x64, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x64, .f32⟩
  | .hbm, ⟨60, _⟩ => ⟨S1700000x1, .f32⟩
  | .hbm, ⟨61, _⟩ => ⟨S1700000x64, .f32⟩
  | .hbm, ⟨62, _⟩ => ⟨S1700000x64, .f32⟩
  | .hbm, ⟨63, _⟩ => ⟨S_, .f32⟩
  | .hbm, ⟨64, _⟩ => ⟨S100000x64, .f32⟩
  | .hbm, ⟨65, _⟩ => ⟨S1700000x1, .i32⟩
  | .hbm, ⟨66, _⟩ => ⟨S100000x64, .f32⟩
  | .hbm, ⟨67, _⟩ => ⟨S1x64, .f32⟩
  | .hbm, ⟨68, _⟩ => ⟨S100000x64, .f32⟩
  | .hbm, ⟨69, _⟩ => ⟨S100000x64, .f32⟩
  | .hbm, ⟨70, _⟩ => ⟨S100000x64, .f32⟩
  | .hbm, ⟨71, _⟩ => ⟨S1x64, .f32⟩
  | .hbm, ⟨72, _⟩ => ⟨S100000x64, .f32⟩
  | .hbm, ⟨73, _⟩ => ⟨S100000x64, .f32⟩
  | .hbm, ⟨74, _⟩ => ⟨S100000x128, .f32⟩
  | .hbm, ⟨75, _⟩ => ⟨S_, .f32⟩
  | .hbm, ⟨76, _⟩ => ⟨S100000x128, .f32⟩
  | .hbm, ⟨77, _⟩ => ⟨S100000x128, .f32⟩
  | .hbm, ⟨78, _⟩ => ⟨S100000x1, .f32⟩
  | .hbm, ⟨79, _⟩ => ⟨S_, .i32⟩
  | .hbm, ⟨80, _⟩ => ⟨S1700000, .i32⟩
  | .hbm, ⟨81, _⟩ => ⟨S1700000, .i1⟩
  | .hbm, ⟨82, _⟩ => ⟨S_, .i32⟩
  | .hbm, ⟨83, _⟩ => ⟨S1700000, .i32⟩
  | .hbm, ⟨84, _⟩ => ⟨S1700000, .i32⟩
  | .hbm, ⟨85, _⟩ => ⟨S1700000, .i32⟩
  | .hbm, ⟨86, _⟩ => ⟨S1700000x1, .i32⟩
  | .hbm, ⟨87, _⟩ => ⟨S1700000x1, .f32⟩
  | .hbm, ⟨88, _⟩ => ⟨S1700000x1, .f32⟩
  | .hbm, ⟨89, _⟩ => ⟨S1700000x1, .f32⟩
  | .hbm, ⟨90, _⟩ => ⟨S_, .f32⟩
  | .hbm, ⟨91, _⟩ => ⟨S100000x1, .f32⟩
  | .hbm, ⟨92, _⟩ => ⟨S1700000x1, .i32⟩
  | .hbm, ⟨93, _⟩ => ⟨S100000x1, .f32⟩
  | .hbm, ⟨94, _⟩ => ⟨S1x1, .f32⟩
  | .hbm, ⟨95, _⟩ => ⟨S100000x1, .f32⟩
  | .hbm, ⟨96, _⟩ => ⟨S100000x1, .f32⟩
  | .hbm, ⟨97, _⟩ => ⟨S100000x1, .f32⟩
  | .hbm, ⟨98, _⟩ => ⟨S1x1, .f32⟩
  | .hbm, ⟨99, _⟩ => ⟨S100000x1, .f32⟩
  | .hbm, ⟨100, _⟩ => ⟨S100000x1, .f32⟩
  | .hbm, ⟨101, _⟩ => ⟨S100000x1, .f32⟩
  | .hbm, ⟨102, _⟩ => ⟨S100000, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_call1_cst : Ref sig .tc := ⟨.hbm, 75, rfl⟩
abbrev main_call1_v0 : Ref sig .tc := ⟨.hbm, 76, rfl⟩
abbrev main_v52 : Ref sig .tc := ⟨.hbm, 77, rfl⟩
abbrev main_v53 : Ref sig .tc := ⟨.hbm, 78, rfl⟩
abbrev main_c_9 : Ref sig .tc := ⟨.hbm, 79, rfl⟩
abbrev main_v54 : Ref sig .tc := ⟨.hbm, 80, rfl⟩
abbrev main_v55 : Ref sig .tc := ⟨.hbm, 81, rfl⟩
abbrev main_c_10 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_11 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  concatenates_S100000x64_S100000x64_S100000x128_d1 : Shape.Concatenates [S100000x64, S100000x64] S100000x128 1
  bcast_S_S100000x128 : S_.BroadcastsInDim S100000x128 (![] : Fin 0 → Fin S100000x128.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x128_S128x1_S100000x1_1_0_0_1_n_n_wf : DotDims.WF S100000x128 S128x1 S100000x1 [1] [0] [0] [1] [] []
  gather_S100000x1_S1700000x1_S1700000x1_1_0_n_n_0_1_11_wf : GatherDims.WF S100000x1 S1700000x1 S1700000x1 [1] [0] [] [0] [] 1 ![1, 1]
  scatter_S100000x1_S1700000x1_S1700000x1_1_0_0_1_wf : ScatterDims.WF S100000x1 S1700000x1 S1700000x1 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf
def gather_S100000x1_S1700000x1_S1700000x1_1_0_n_n_0_1_11 : GatherDims S100000x1 S1700000x1 S1700000x1 where
  offsetDims := [1]
  collapsedSliceDims := [0]
  operandBatchingDims := []
  startIndicesBatchingDims := []
  startIndexMap := [0]
  indexVectorDim := 1
  sliceSizes := ![1, 1]
  wf := gather_S100000x1_S1700000x1_S1700000x1_1_0_n_n_0_1_11_wf
def scatter_S100000x1_S1700000x1_S1700000x1_1_0_0_1 : ScatterDims S100000x1 S1700000x1 S1700000x1 where
  updateWindowDims := [1]
  insertedWindowDims := [0]
  scatterDimsToOperandDims := [0]
  indexVectorDim := 1
  wf := scatter_S100000x1_S1700000x1_S1700000x1_1_0_0_1_wf

class Facts : Prop extends Facts₀ where

variable [Facts]
-- ==== Proof.LibHostResults.lean ====
/-
  Reading one buffer after a stretch of host operations (general: nothing here names a program). Each operation
  writes its function's value into its own result buffer and leaves every other buffer as it was, so the contents of a
  buffer after the stretch, `StableHlo.after ops U (Proc.devRef .tc r)`, is a term of the operations' functions over the
  contents `U` the stretch started from. `host_results` computes that term in one pass, for stretches of nullary, unary,
  binary, ternary and reshape operations, also when an operation joins two COMPUTED arrays: a joined pair is read as
  the two-argument function `cat2`, whose arguments the pass then rewrites like any other operand (the joined arrays sit
  inside a list of dependent pairs, which a rewriting pass does not enter by itself).
-/
import Idealize.ShloMosaic.Lib.StableHlo.Run

noncomputable section

namespace Cert.HostTac

open Idealize.ShloMosaic Idealize.ShloMosaic.StableHlo

/-- Two arrays joined along an axis, as a function of the two arrays (so that each can be rewritten by itself). -/
def cat2 {α : Type} (t : Shape) (a : Fin t.rank) (s₁ s₂ : Shape) (h : Shape.Concatenates [s₁, s₂] t a)
    (x₁ : s₁.Idx → α) (x₂ : s₂.Idx → α) : t.Idx → α :=
  concatenate t a [⟨s₁, x₁⟩, ⟨s₂, x₂⟩] h

theorem cat2_eq {α : Type} (t : Shape) (a : Fin t.rank) (s₁ s₂ : Shape) (h : Shape.Concatenates [s₁, s₂] t a)
    (x₁ : s₁.Idx → α) (x₂ : s₂.Idx → α) : concatenate t a [⟨s₁, x₁⟩, ⟨s₂, x₂⟩] h = cat2 t a s₁ s₂ h x₁ x₂ := rfl

/-- One pass over a stretch: every operation's result at its own buffer is its function's value, at any other buffer
    what was there before; a joined pair is read as `cat2`, so that the pass reaches the two joined arrays. -/
macro "host_results" : tactic =>
  `(tactic| (simp (disch := decide) only [after_cons, after_nil, cat2_eq,
      nullary_result', unary_result', binary_result', ternary_result', reshape_result',
      nullary_result_ne', unary_result_ne', binary_result_ne', ternary_result_ne', reshape_result_ne',
      TRef.ofBuf, TRef.toBuf, cast_eq]))

end Cert.HostTac

end
-- ==== Proof.KOperands.lean ====
/-
  The operands the kernel's host code hands to its two Pallas calls besides the features: the two weight matrices of
  a layer side by side (the second layer's two columns padded with 126 zero columns to the call's 128), and the bias
  row, zero over the half (or column) whose bias is added after the aggregation and the given bias over the other
  (padded with zeros likewise).
-/
import proofs.«177942_j46574625358105_1_alg».proof.Proof.Gen.KernelIdeal

noncomputable section

namespace Cert.KernelIdeal.Operands

open Cert.KernelIdeal Cert.KernelIdeal.Facts₀ Idealize.ShloMosaic

variable {F : FTy → Type} [FloatOps F]

/-- `[W1 | Wf1]`: 128 rows of 64 + 64 entries. -/
def wcat1 (w1 wf1 : FVec F S128x64 .f32) : FVec F S128x128 .f32 :=
  concatenate S128x128 1 [⟨S128x64, w1⟩, ⟨S128x64, wf1⟩] concatenates_S128x64_S128x64_S128x128_d1

/-- `[0 … 0 | bf1]` as one row of 128 entries. -/
def bcat1 (bf1 : FVec F S64 .f32) : FVec F S1x128 .f32 :=
  shapeCast S1x128 (concatenate S128 0 [⟨S64, broadcastInDim S64 ![] bcast_S_S64 (constant S_ .f32 0x00000000#32)⟩, ⟨S64, bf1⟩]
    concatenates_S64_S64_S128_d0) shapeCasts_S128_S1x128

/-- `[W2 | Wf2 | 0 … 0]`: 128 rows of 1 + 1 + 126 entries. -/
def wpad2 (w2 wf2 : FVec F S128x1 .f32) : FVec F S128x128 .f32 :=
  concatenate S128x128 1 [⟨S128x2, concatenate S128x2 1 [⟨S128x1, w2⟩, ⟨S128x1, wf2⟩] concatenates_S128x1_S128x1_S128x2_d1⟩,
    ⟨S128x126, broadcastInDim S128x126 ![] bcast_S_S128x126 (constant S_ .f32 0x00000000#32)⟩] concatenates_S128x2_S128x126_S128x128_d1

/-- `[0 | bf2 | 0 … 0]` as one row of 128 entries. -/
def bpad2 (bf2 : FVec F S1 .f32) : FVec F S1x128 .f32 :=
  shapeCast S1x128 (concatenate S128 0 [⟨S2, concatenate S2 0 [⟨S1, broadcastInDim S1 ![] bcast_S_S1 (constant S_ .f32 0x00000000#32)⟩, ⟨S1, bf2⟩]
      concatenates_S1_S1_S2_d0⟩,
    ⟨S126, broadcastInDim S126 ![] bcast_S_S126 (constant S_ .f32 0x00000000#32)⟩] concatenates_S2_S126_S128_d0) shapeCasts_S128_S1x128

end Cert.KernelIdeal.Operands

end
-- ==== Proof.KHostA.lean ====
/-
  The host operations before the first Pallas call, read from any starting contents `U` that holds the arguments: the
  edge lists with the self loops appended (`main_v3` the sources, `main_v6` the targets) and the symmetric normalisation
  `main_v29` are the reference's own stages of the edge index; the first call's weight and bias operands are the joined
  matrices of `Operands`; the arguments are untouched.
-/
import proofs.«177942_j46574625358105_1_alg».proof.Proof.Gen.KernelIdeal.Launch
import proofs.«177942_j46574625358105_1_alg».proof.Proof.KOperands
import proofs.«177942_j46574625358105_1_alg».proof.Proof.RefRead
import proofs.«177942_j46574625358105_1_alg».proof.Proof.LibHostResults

noncomputable section

namespace Cert.KernelIdeal.StageA

open Cert.KernelIdeal Cert.KernelIdeal.Facts₀ Cert.KernelIdeal.Gen Cert.KernelIdeal.Operands Cert.HostTac
open Idealize.ShloMosaic Idealize.ShloMosaic.TcCoe Idealize.SL.Sem Idealize.ShloMosaic.StableHlo
open Cert.ReferenceIdeal.ReadP

variable {F : FTy → Type} [FloatOps F]
variable (U : Valuation τ sig (Elt F))

/-- The first stretch, its callee's three operations and the second stretch, as one fold. -/
abbrev afterA : Valuation τ sig (Elt F) := StableHlo.after hostOps0_2 (StableHlo.after hostOps0_1 (StableHlo.after hostOps0 U))

theorem sources (x1 : (⟨S2x1600000, .i32⟩ : BufTy).Contents (Elt F)) (h1 : U (Proc.devRef .tc main_arg1) = x1) :
    afterA U (Proc.devRef .tc main_v3) = val_main_v3 (F := F) x1 := by
  subst h1; unfold afterA; host_results; rfl

theorem targets (x1 : (⟨S2x1600000, .i32⟩ : BufTy).Contents (Elt F)) (h1 : U (Proc.devRef .tc main_arg1) = x1) :
    afterA U (Proc.devRef .tc main_v6) = val_main_v6 (F := F) x1 := by
  subst h1; unfold afterA; host_results; rfl

set_option maxHeartbeats 1000000 in
theorem norm (x1 : (⟨S2x1600000, .i32⟩ : BufTy).Contents (Elt F)) (h1 : U (Proc.devRef .tc main_arg1) = x1) :
    afterA U (Proc.devRef .tc main_v29) = val_main_v29 (F := F) x1 := by
  subst h1; unfold afterA; host_results; rfl

theorem weights1 (x2 x4 : (⟨S128x64, .f32⟩ : BufTy).Contents (Elt F)) (h2 : U (Proc.devRef .tc main_arg2) = x2) (h4 : U (Proc.devRef .tc main_arg4) = x4) :
    afterA U (Proc.devRef .tc main_v30) = wcat1 x2 x4 := by
  subst h2 h4; unfold afterA; host_results; rfl

theorem bias1 (x5 : (⟨S64, .f32⟩ : BufTy).Contents (Elt F)) (h5 : U (Proc.devRef .tc main_arg5) = x5) :
    afterA U (Proc.devRef .tc main_v33) = bcat1 x5 := by
  subst h5; unfold afterA; host_results; rfl

/-- No operation of the three stretches writes an argument. -/
theorem keep_arg0 : afterA U (Proc.devRef .tc main_arg0) = U (Proc.devRef .tc main_arg0) := by unfold afterA; host_results
theorem keep_arg3 : afterA U (Proc.devRef .tc main_arg3) = U (Proc.devRef .tc main_arg3) := by unfold afterA; host_results
theorem keep_arg6 : afterA U (Proc.devRef .tc main_arg6) = U (Proc.devRef .tc main_arg6) := by unfold afterA; host_results
theorem keep_arg7 : afterA U (Proc.devRef .tc main_arg7) = U (Proc.devRef .tc main_arg7) := by unfold afterA; host_results
theorem keep_arg8 : afterA U (Proc.devRef .tc main_arg8) = U (Proc.devRef .tc main_arg8) := by unfold afterA; host_results
theorem keep_arg9 : afterA U (Proc.devRef .tc main_arg9) = U (Proc.devRef .tc main_arg9) := by unfold afterA; host_results

end Cert.KernelIdeal.StageA

end
-- ==== Proof.KHostB.lean ====
/-
  The host operations between the two Pallas calls, read from any contents `U` at the first call's exit in which the
  two halves of the call's result are the reference's `x · W1` and `x · Wf1 + bf1` and the edge data are the
  reference's: the hidden features `main_v54` (gather by source, scale, scatter-add by target, bias, join with the
  other half, rectify) are the reference's stage `val_main_v52`; the second call's weight and bias operands are the
  padded matrices of `Operands`; the edge data and the arguments are untouched.
-/
import proofs.«177942_j46574625358105_1_alg».proof.Proof.Gen.KernelIdeal.Launch
import proofs.«177942_j46574625358105_1_alg».proof.Proof.KOperands
import proofs.«177942_j46574625358105_1_alg».proof.Proof.RefRead
import proofs.«177942_j46574625358105_1_alg».proof.Proof.LibHostResults

noncomputable section

namespace Cert.KernelIdeal.StageB

open Cert.KernelIdeal Cert.KernelIdeal.Gen Cert.KernelIdeal.Operands Cert.HostTac
open Idealize.ShloMosaic Idealize.ShloMosaic.TcCoe Idealize.SL.Sem Idealize.ShloMosaic.StableHlo
open Cert.ReferenceIdeal.ReadP

variable {F : FTy → Type} [FloatOps F]
variable (U : Valuation τ sig (Elt F))

/-- The stretch, the rectifier's three operations and the operand stretch, as one fold. -/
abbrev afterB : Valuation τ sig (Elt F) := StableHlo.after hostOps1_2 (StableHlo.after hostOps1_1 (StableHlo.after hostOps1 U))

set_option maxHeartbeats 1000000 in
theorem hidden (x0 : (⟨S100000x128, .f32⟩ : BufTy).Contents (Elt F)) (x1 : (⟨S2x1600000, .i32⟩ : BufTy).Contents (Elt F)) (x2 : (⟨S128x64, .f32⟩ : BufTy).Contents (Elt F)) (x3 : (⟨S64, .f32⟩ : BufTy).Contents (Elt F)) (x4 : (⟨S128x64, .f32⟩ : BufTy).Contents (Elt F)) (x5 : (⟨S64, .f32⟩ : BufTy).Contents (Elt F))
    (hlo : extractStridedSlice S100000x64 ![0, 0] (U (Proc.devRef .tc main_v34)) slices_S100000x128_S100000x64_0_0 = val_main_v30 (F := F) x0 x2)
    (hhi : extractStridedSlice S100000x64 ![0, 64] (U (Proc.devRef .tc main_v34)) slices_S100000x128_S100000x64_0_64 = val_main_v50 (F := F) x0 x4 x5)
    (h3 : U (Proc.devRef .tc main_v3) = val_main_v3 (F := F) x1) (h6 : U (Proc.devRef .tc main_v6) = val_main_v6 (F := F) x1)
    (h29 : U (Proc.devRef .tc main_v29) = val_main_v29 (F := F) x1) (ha3 : U (Proc.devRef .tc main_arg3) = x3) :
    afterB U (Proc.devRef .tc main_v54) = val_main_v52 (F := F) x0 x1 x2 x3 x4 x5 := by
  unfold afterB; host_results
  rw [hlo, hhi, h3, h6, h29, ha3]
  rfl

theorem weights2 (x6 x8 : (⟨S128x1, .f32⟩ : BufTy).Contents (Elt F)) (h6 : U (Proc.devRef .tc main_arg6) = x6) (h8 : U (Proc.devRef .tc main_arg8) = x8) :
    afterB U (Proc.devRef .tc main_v59) = wpad2 x6 x8 := by
  subst h6 h8; unfold afterB; host_results; rfl

theorem bias2 (x9 : (⟨S1, .f32⟩ : BufTy).Contents (Elt F)) (h9 : U (Proc.devRef .tc main_arg9) = x9) :
    afterB U (Proc.devRef .tc main_v62) = bpad2 x9 := by
  subst h9; unfold afterB; host_results; rfl

/-- No operation of the three stretches writes the edge data or an argument. -/
theorem keep_v3 : afterB U (Proc.devRef .tc main_v3) = U (Proc.devRef .tc main_v3) := by unfold afterB; host_results
theorem keep_v6 : afterB U (Proc.devRef .tc main_v6) = U (Proc.devRef .tc main_v6) := by unfold afterB; host_results
theorem keep_v29 : afterB U (Proc.devRef .tc main_v29) = U (Proc.devRef .tc main_v29) := by unfold afterB; host_results
theorem keep_arg7 : afterB U (Proc.devRef .tc main_arg7) = U (Proc.devRef .tc main_arg7) := by unfold afterB; host_results

end Cert.KernelIdeal.StageB

end
-- ==== Proof.KHostC.lean ====
/-
  The host operations after the second Pallas call, read from any contents `U` at the call's exit in which columns 0
  and 1 of the call's result are the reference's `h · W2` and `h · Wf2 + bf2` and the edge data are the reference's:
  the result `main_v82` (gather by source, scale, scatter-add by target, the bias, the other column, flattened) is the
  reference's last stage `val_main_v74`.
-/
import proofs.«177942_j46574625358105_1_alg».proof.Proof.Gen.KernelIdeal.Launch
import proofs.«177942_j46574625358105_1_alg».proof.Proof.KOperands
import proofs.«177942_j46574625358105_1_alg».proof.Proof.RefRead
import proofs.«177942_j46574625358105_1_alg».proof.Proof.LibHostResults

noncomputable section

namespace Cert.KernelIdeal.StageC

open Cert.KernelIdeal Cert.KernelIdeal.Gen Cert.KernelIdeal.Operands Cert.HostTac
open Idealize.ShloMosaic Idealize.ShloMosaic.TcCoe Idealize.SL.Sem Idealize.ShloMosaic.StableHlo
open Cert.ReferenceIdeal.ReadP

variable {F : FTy → Type} [FloatOps F]
variable (U : Valuation τ sig (Elt F))

set_option maxHeartbeats 1000000 in
theorem result (x0 : (⟨S100000x128, .f32⟩ : BufTy).Contents (Elt F)) (x1 : (⟨S2x1600000, .i32⟩ : BufTy).Contents (Elt F)) (x2 : (⟨S128x64, .f32⟩ : BufTy).Contents (Elt F)) (x3 : (⟨S64, .f32⟩ : BufTy).Contents (Elt F)) (x4 : (⟨S128x64, .f32⟩ : BufTy).Contents (Elt F)) (x5 : (⟨S64, .f32⟩ : BufTy).Contents (Elt F)) (x6 : (⟨S128x1, .f32⟩ : BufTy).Contents (Elt F)) (x7 : (⟨S1, .f32⟩ : BufTy).Contents (Elt F)) (x8 : (⟨S128x1, .f32⟩ : BufTy).Contents (Elt F)) (x9 : (⟨S1, .f32⟩ : BufTy).Contents (Elt F))
    (hlo : extractStridedSlice S100000x1 ![0, 0] (U (Proc.devRef .tc main_v63)) slices_S100000x128_S100000x1_0_0 = val_main_v53 (F := F) x0 x1 x2 x3 x4 x5 x6)
    (hhi : extractStridedSlice S100000x1 ![0, 1] (U (Proc.devRef .tc main_v63)) slices_S100000x128_S100000x1_0_1 = val_main_v72 (F := F) x0 x1 x2 x3 x4 x5 x8 x9)
    (h3 : U (Proc.devRef .tc main_v3) = val_main_v3 (F := F) x1) (h6 : U (Proc.devRef .tc main_v6) = val_main_v6 (F := F) x1)
    (h29 : U (Proc.devRef .tc main_v29) = val_main_v29 (F := F) x1) (ha7 : U (Proc.devRef .tc main_arg7) = x7) :
    StableHlo.after hostOps2 U (Proc.devRef .tc main_v82) = val_main_v74 (F := F) x0 x1 x2 x3 x4 x5 x6 x7 x8 x9 := by
  host_results
  rw [hlo, hhi, h3, h6, h29, ha7]
  rfl

end Cert.KernelIdeal.StageC

end
-- ==== Proof.Lin.lean ====
/-
  One dense layer over the extended reals: row `r` of the features against column `c` of the weights, a sum of 128
  products, plus entry `c` of the bias row. Both Pallas calls of the kernel compute this function of their three
  operands, block of rows by block of rows; the reference computes the same sums as `dot_general`s of the two halves of
  the weight matrix.
-/
import Idealize.ShloMosaic.PureOps.Ideal
import Idealize.ShloMosaic.Lib.ValueIdx

noncomputable section

open scoped BigOperators

namespace Cert.Gcn

open Idealize.ShloMosaic Idealize.ShloMosaic.ValueIdx

/-- Entry `(r, c)` of the layer: `∑ k, x[r, k] · w[k, c] + b[0, c]`. -/
def linAt (x : FVec Ideal ⟨2, ![100000, 128]⟩ .f32) (w : FVec Ideal ⟨2, ![128, 128]⟩ .f32) (b : FVec Ideal ⟨2, ![1, 128]⟩ .f32)
    (r : Fin 100000) (c : Fin 128) : EReal :=
  (∑ k : Fin 128, x (ix2 r k) * w (ix2 k c)) + b (ix2 (0 : Fin 1) c)

/-- The layer as an array of 100000 rows of 128 entries. -/
def lin (x : FVec Ideal ⟨2, ![100000, 128]⟩ .f32) (w : FVec Ideal ⟨2, ![128, 128]⟩ .f32) (b : FVec Ideal ⟨2, ![1, 128]⟩ .f32) :
    FVec Ideal ⟨2, ![100000, 128]⟩ .f32 :=
  fun i => linAt x w b (i 0) (i 1)

theorem lin_apply (x : FVec Ideal ⟨2, ![100000, 128]⟩ .f32) (w : FVec Ideal ⟨2, ![128, 128]⟩ .f32) (b : FVec Ideal ⟨2, ![1, 128]⟩ .f32)
    (r : Fin 100000) (c : Fin 128) : lin x w b (ix2 r c) = linAt x w b r c := rfl

end Cert.Gcn

end
-- ==== Proof.KRegion.lean ====
/-
  What each Pallas call leaves in its result array, whatever the buffers hold when it is entered: the dense layer
  `Cert.Gcn.lin` of its three operand arrays. Grid point `t` computes rows `5000·t … 5000·t + 4999`; the twenty blocks
  tile the 100000 rows.
-/
import proofs.«177942_j46574625358105_1_alg».proof.Proof.Gen.KernelIdeal.Frame
import proofs.«177942_j46574625358105_1_alg».proof.Proof.Lin
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.TcCoe Idealize.ShloMosaic.ValueIdx Idealize.SL.Sem
open Idealize.ShloMosaic.Pipeline (Dat Cfg Window)
open scoped BigOperators

theorem zero_offsets : (![0, 0] : Fin 2 → Nat) = fun _ => 0 := funext fun a => by fin_cases a <;> rfl

/-! ## The block product at an index -/

/-- The dimension numbers of both calls' product: rows of the left operand against columns of the right. -/
abbrev dotRC := dot_S5000x128_S128x128_S5000x128_1_0_0_1_n_n

theorem dot_lhs_row (i : S5000x128.Idx) (q : dotRC.contr.Idx) : (dotRC.lhsIdx i q 0).val = (i 0).val := by
  unfold DotDims.lhsIdx
  rw [dif_neg (show ¬(0 : Fin S5000x128.rank) ∈ dotRC.lhsBatch by decide), dif_pos (show (0 : Fin S5000x128.rank) ∈ dotRC.lhsNonContracting by decide)]
  rfl
theorem dot_lhs_col (i : S5000x128.Idx) (q : dotRC.contr.Idx) : (dotRC.lhsIdx i q 1).val = (q ⟨0, by decide⟩).val :=
  dotRC.lhsIdx_val_of_single rfl i q
theorem dot_rhs_row (i : S5000x128.Idx) (q : dotRC.contr.Idx) : (dotRC.rhsIdx i q 0).val = (q ⟨0, by decide⟩).val :=
  dotRC.rhsIdx_val_of_single rfl i q
theorem dot_rhs_col (i : S5000x128.Idx) (q : dotRC.contr.Idx) : (dotRC.rhsIdx i q 1).val = (i 1).val := by
  unfold DotDims.rhsIdx
  rw [dif_neg (show ¬(1 : Fin S128x128.rank) ∈ dotRC.rhsBatch by decide), dif_pos (show (1 : Fin S128x128.rank) ∈ dotRC.rhsNonContracting by decide)]
  rfl

/-- The product into a zero accumulator, at an index: the sum of the 128 products of a row with a column. -/
theorem matmul_zero_apply (a : FVec Ideal S5000x128 .bf16) (b : FVec Ideal S128x128 .bf16) (p : Fin 5000) (q : Fin 128) :
    FloatOps.matmul dotRC none a b (constant S5000x128 .f32 0x00000000#32) (ix2 p q) = ∑ k : Fin 128, a (ix2 p k) * b (ix2 k q) := by
  rw [Ideal.matmul_constant_zero_apply, ← Equiv.sum_comp (ValueIdx.contrEquiv1 dotRC 128 rfl rfl).symm]
  refine Finset.sum_congr rfl fun k _ => ?_
  have hk := ValueIdx.contrEquiv1_symm_val dotRC 128 rfl rfl k
  have el : dotRC.lhsIdx (ix2 p q) ((ValueIdx.contrEquiv1 dotRC 128 rfl rfl).symm k) = ix2 p k := funext fun a => Fin.ext (by
    match a with
    | ⟨0, _⟩ => exact dot_lhs_row _ _
    | ⟨1, _⟩ => exact (dot_lhs_col _ _).trans hk)
  have er : dotRC.rhsIdx (ix2 p q) ((ValueIdx.contrEquiv1 dotRC 128 rfl rfl).symm k) = ix2 k q := funext fun a => Fin.ext (by
    match a with
    | ⟨0, _⟩ => exact (dot_rhs_row _ _).trans hk
    | ⟨1, _⟩ => exact dot_rhs_col _ _)
  rw [el, er]

/-- The bias row broadcast down the rows, at an index. -/
theorem bias_apply (x2 : Vec Ideal S1x128 .f32) (p : Fin 5000) (q : Fin 128) :
    broadcastTo S5000x128 x2 broadcasts_S1x128_S5000x128 (ix2 p q) = x2 (ix2 (0 : Fin 1) q) := by
  refine broadcastTo_apply x2 broadcasts_S1x128_S5000x128 (ix2 p q) (ix2 (0 : Fin 1) q) fun a => ?_
  match a with
  | ⟨0, _⟩ => rfl
  | ⟨1, _⟩ => rfl

/-- The first call's stored block at an index. -/
theorem pay0_apply (x0 : Vec Ideal S5000x128 .f32) (x1 : Vec Ideal S128x128 .f32) (x2 : Vec Ideal S1x128 .f32) (p : Fin 5000) (q : Fin 128) :
    k0_pay1 x0 x1 x2 (ix2 p q) = (∑ k : Fin 128, x0 (ix2 p k) * x1 (ix2 k q)) + x2 (ix2 (0 : Fin 1) q) := by
  unfold k0_pay1
  simp only [shapeCast_self]
  rw [addf_apply]
  simp only [matmul]
  rw [matmul_zero_apply, bias_apply]
  rfl

/-- The second call's stored block at an index. -/
theorem pay1_apply (x0 : Vec Ideal S5000x128 .f32) (x1 : Vec Ideal S128x128 .f32) (x2 : Vec Ideal S1x128 .f32) (p : Fin 5000) (q : Fin 128) :
    k1_pay1 x0 x1 x2 (ix2 p q) = (∑ k : Fin 128, x0 (ix2 p k) * x1 (ix2 k q)) + x2 (ix2 (0 : Fin 1) q) := by
  unfold k1_pay1
  simp only [shapeCast_self]
  rw [addf_apply]
  simp only [matmul]
  rw [matmul_zero_apply, bias_apply]
  rfl

variable (V : (c : Dev nD) → (b : Ref sig .tc) → Buf (Elt Ideal) ((c : Thread nD τ).loc b))

/-! ## The first call -/

/-- The blocks' index maps over the twenty points: the rows' block moves with the result's, down the rows, at block
    index the point's number; the weights' and the bias row's blocks stay at the origin. -/
theorem idx_facts0 : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (1 : Fin 2) = 0
    ∧ win0_3.index t (0 : Fin 2) = t.val :=
  (by decide +kernel : ∀ t : Fin grid0.N, _)

/-- The rows' block at point `t` is rows `5000·t … 5000·t + 4999` of the features. -/
theorem rows_block0 (c : Dev nD) (t : Fin cfg0.N) (y : S5000x128.Idx) (i : S100000x128.Idx)
    (h0 : (i 0).val = t.val * 5000 + (y 0).val) (h1 : (i 1).val = (y 1).val) :
    (iblk0 V c 0 t : Vec Ideal S5000x128 .f32) y = (V c main_arg0 : S100000x128.Idx → EReal) i := by
  obtain ⟨e0, e1, -, -, -, -, -, e7⟩ := idx_facts0 t
  unfold iblk0
  rw [View.read_apply]
  show V c main_arg0 _ = V c main_arg0 _
  congr 1
  funext a
  apply Fin.ext
  match a with
  | ⟨0, _⟩ => show win0_0.index t (0 : Fin 2) * 5000 + 1 * (y 0).val = (i 0).val; rw [e0, e7, h0]; omega
  | ⟨1, _⟩ => show win0_0.index t (1 : Fin 2) * 128 + 1 * (y 1).val = (i 1).val; rw [e1, h1]; omega

/-- The weights' block at every point is the whole matrix. -/
theorem weights_block0 (c : Dev nD) (t : Fin cfg0.N) (y : S128x128.Idx) :
    (iblk0 V c 1 t : Vec Ideal S128x128 .f32) y = (V c main_v30 : S128x128.Idx → EReal) y := by
  obtain ⟨-, -, e2, e3, -, -, -, -⟩ := idx_facts0 t
  unfold iblk0
  rw [View.read_apply]
  show V c main_v30 _ = V c main_v30 _
  congr 1
  funext a
  apply Fin.ext
  match a with
  | ⟨0, _⟩ => show win0_1.index t (0 : Fin 2) * 128 + 1 * (y 0).val = (y 0).val; rw [e2]; omega
  | ⟨1, _⟩ => show win0_1.index t (1 : Fin 2) * 128 + 1 * (y 1).val = (y 1).val; rw [e3]; omega

/-- The bias block at every point is the whole row. -/
theorem bias_block0 (c : Dev nD) (t : Fin cfg0.N) (y : S1x128.Idx) :
    (iblk0 V c 2 t : Vec Ideal S1x128 .f32) y = (V c main_v33 : S1x128.Idx → EReal) y := by
  obtain ⟨-, -, -, -, e4, e5, -, -⟩ := idx_facts0 t
  unfold iblk0
  rw [View.read_apply]
  show V c main_v33 _ = V c main_v33 _
  congr 1
  funext a
  apply Fin.ext
  match a with
  | ⟨0, _⟩ => show win0_2.index t (0 : Fin 2) * 1 + 1 * (y 0).val = (y 0).val; rw [e4]; omega
  | ⟨1, _⟩ => show win0_2.index t (1 : Fin 2) * 128 + 1 * (y 1).val = (y 1).val; rw [e5]; omega

/-- Where the result's block at point `t` sits in the array: row `5000·t + p`, the same column. -/
theorem out_pos0 (t : Fin cfg0.N) (p : Fin 5000) (q : Fin 128) (r : Fin 100000) (hr : r.val = t.val * 5000 + p.val) :
    (((cfg0.win 3).blk t).view.emb (ix2 p q) : S100000x128.Idx) = ix2 r q := by
  obtain ⟨-, -, -, -, -, -, e6, e7⟩ := idx_facts0 t
  funext a
  apply Fin.ext
  match a with
  | ⟨0, _⟩ => show win0_3.index t (0 : Fin 2) * 5000 + 1 * p.val = r.val; rw [e7, hr]; omega
  | ⟨1, _⟩ => show win0_3.index t (1 : Fin 2) * 128 + 1 * q.val = q.val; rw [e6]; omega

/-- What point `t` writes back is block `t` of the layer of the three operand arrays. -/
theorem flushed0_eq (c : Dev nD) (t : Fin cfg0.N) :
    (dat0 V c).flushed 3 t = ((cfg0.win 3).blk t).view.read (Elt Ideal) (Cert.Gcn.lin (V c main_arg0) (V c main_v30) (V c main_v33)) := by
  show (cfg0.win 3).cut (grid0.coords t) ((dat0 V c).after 3 t) = _
  rw [after0_3]
  unfold out0_3
  rw [View.canon_unit_zero zero_offsets]
  simp only [View.ld_unit_zero (S := S5000x128) zero_offsets, View.ld_unit_zero (S := S128x128) zero_offsets, View.ld_unit_zero (S := S1x128) zero_offsets]
  funext j
  obtain ⟨p, q, rfl⟩ : ∃ (p : Fin 5000) (q : Fin 128), j = ix2 p q := ⟨j 0, j 1, eq_ix2 (n0 := 5000) (n1 := 128) j⟩
  have hN : cfg0.N = 20 := N_0
  have ht : t.val < 20 := hN ▸ t.isLt
  have hp : p.val < 5000 := p.isLt
  obtain ⟨r, hr⟩ : ∃ r : Fin 100000, r.val = t.val * 5000 + p.val := ⟨⟨t.val * 5000 + p.val, by omega⟩, rfl⟩
  rw [View.read_apply]
  show k0_pay1 (iblk0 V c 0 t) (iblk0 V c 1 t) (iblk0 V c 2 t) (ix2 p q)
    = Cert.Gcn.lin (V c main_arg0) (V c main_v30) (V c main_v33) (((cfg0.win 3).blk t).view.emb (ix2 p q))
  rw [out_pos0 t p q r hr, Cert.Gcn.lin_apply]
  refine (pay0_apply _ _ _ p q).trans ?_
  unfold Cert.Gcn.linAt
  refine congrArg₂ (· + ·) (Finset.sum_congr rfl fun k _ => congrArg₂ (· * ·) ?_ ?_) ?_
  · exact rows_block0 V c t (ix2 p k) (ix2 r k) hr rfl
  · exact weights_block0 V c t (ix2 k q)
  · exact bias_block0 V c t (ix2 (0 : Fin 1) q)

/-- An index of the result array is in point `t`'s block iff each coordinate is in the block's range on its axis. -/
theorem mem_blk0 (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v34).slice (win0_3.rect t)).set ↔ _
  rw [View.set_slice_whole, Rect.mem_set_unit]
  exact Iff.rfl

/-- The twenty blocks tile the rows: row `r` is in the block of point `r / 5000`. -/
theorem cover0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := N_0
  obtain ⟨t, ht⟩ : ∃ t : Fin cfg0.N, t.val = (i 0).val / 5000 := ⟨⟨(i 0).val / 5000, by rw [hN]; omega⟩, rfl⟩
  refine ⟨t, flush0_3 t, ?_⟩
  rw [mem_blk0]
  obtain ⟨-, -, -, -, -, -, e6, e7⟩ := idx_facts0 t
  intro a
  match a with
  | ⟨0, _⟩ => show win0_3.index t (0 : Fin 2) * 5000 ≤ (i 0).val ∧ (i 0).val < win0_3.index t (0 : Fin 2) * 5000 + 5000; rw [e7, ht]; omega
  | ⟨1, _⟩ => show win0_3.index t (1 : Fin 2) * 128 ≤ (i 1).val ∧ (i 1).val < win0_3.index t (1 : Fin 2) * 128 + 128; rw [e6]; omega

/-- The first call's result array after its twenty grid points. -/
theorem region0 (c : Dev nD) :
    (dat0 V c).arrAt 3 cfg0.N = Cert.Gcn.lin (V c main_arg0) (V c main_v30) (V c main_v33) :=
  (dat0 V c).arrAt_eq_of_cover 3 _ (fun t _ => flushed0_eq V c t) cover0

/-! ## The second call -/

/-- The blocks' index maps over the twenty points: the rows' block moves with the result's, down the rows, at block
    index the point's number; the weights' and the bias row's blocks stay at the origin. -/
theorem idx_facts1 : ∀ t : Fin cfg1.N, win1_0.index t (0 : Fin 2) = win1_3.index t (0 : Fin 2)
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (1 : Fin 2) = 0
    ∧ win1_3.index t (0 : Fin 2) = t.val :=
  (by decide +kernel : ∀ t : Fin grid1.N, _)

/-- The rows' block at point `t` is rows `5000·t … 5000·t + 4999` of the features. -/
theorem rows_block1 (c : Dev nD) (t : Fin cfg1.N) (y : S5000x128.Idx) (i : S100000x128.Idx)
    (h0 : (i 0).val = t.val * 5000 + (y 0).val) (h1 : (i 1).val = (y 1).val) :
    (iblk1 V c 0 t : Vec Ideal S5000x128 .f32) y = (V c main_v54 : S100000x128.Idx → EReal) i := by
  obtain ⟨e0, e1, -, -, -, -, -, e7⟩ := idx_facts1 t
  unfold iblk1
  rw [View.read_apply]
  show V c main_v54 _ = V c main_v54 _
  congr 1
  funext a
  apply Fin.ext
  match a with
  | ⟨0, _⟩ => show win1_0.index t (0 : Fin 2) * 5000 + 1 * (y 0).val = (i 0).val; rw [e0, e7, h0]; omega
  | ⟨1, _⟩ => show win1_0.index t (1 : Fin 2) * 128 + 1 * (y 1).val = (i 1).val; rw [e1, h1]; omega

/-- The weights' block at every point is the whole matrix. -/
theorem weights_block1 (c : Dev nD) (t : Fin cfg1.N) (y : S128x128.Idx) :
    (iblk1 V c 1 t : Vec Ideal S128x128 .f32) y = (V c main_v59 : S128x128.Idx → EReal) y := by
  obtain ⟨-, -, e2, e3, -, -, -, -⟩ := idx_facts1 t
  unfold iblk1
  rw [View.read_apply]
  show V c main_v59 _ = V c main_v59 _
  congr 1
  funext a
  apply Fin.ext
  match a with
  | ⟨0, _⟩ => show win1_1.index t (0 : Fin 2) * 128 + 1 * (y 0).val = (y 0).val; rw [e2]; omega
  | ⟨1, _⟩ => show win1_1.index t (1 : Fin 2) * 128 + 1 * (y 1).val = (y 1).val; rw [e3]; omega

/-- The bias block at every point is the whole row. -/
theorem bias_block1 (c : Dev nD) (t : Fin cfg1.N) (y : S1x128.Idx) :
    (iblk1 V c 2 t : Vec Ideal S1x128 .f32) y = (V c main_v62 : S1x128.Idx → EReal) y := by
  obtain ⟨-, -, -, -, e4, e5, -, -⟩ := idx_facts1 t
  unfold iblk1
  rw [View.read_apply]
  show V c main_v62 _ = V c main_v62 _
  congr 1
  funext a
  apply Fin.ext
  match a with
  | ⟨0, _⟩ => show win1_2.index t (0 : Fin 2) * 1 + 1 * (y 0).val = (y 0).val; rw [e4]; omega
  | ⟨1, _⟩ => show win1_2.index t (1 : Fin 2) * 128 + 1 * (y 1).val = (y 1).val; rw [e5]; omega

/-- Where the result's block at point `t` sits in the array: row `5000·t + p`, the same column. -/
theorem out_pos1 (t : Fin cfg1.N) (p : Fin 5000) (q : Fin 128) (r : Fin 100000) (hr : r.val = t.val * 5000 + p.val) :
    (((cfg1.win 3).blk t).view.emb (ix2 p q) : S100000x128.Idx) = ix2 r q := by
  obtain ⟨-, -, -, -, -, -, e6, e7⟩ := idx_facts1 t
  funext a
  apply Fin.ext
  match a with
  | ⟨0, _⟩ => show win1_3.index t (0 : Fin 2) * 5000 + 1 * p.val = r.val; rw [e7, hr]; omega
  | ⟨1, _⟩ => show win1_3.index t (1 : Fin 2) * 128 + 1 * q.val = q.val; rw [e6]; omega

/-- What point `t` writes back is block `t` of the layer of the three operand arrays. -/
theorem flushed1_eq (c : Dev nD) (t : Fin cfg1.N) :
    (dat1 V c).flushed 3 t = ((cfg1.win 3).blk t).view.read (Elt Ideal) (Cert.Gcn.lin (V c main_v54) (V c main_v59) (V c main_v62)) := by
  show (cfg1.win 3).cut (grid1.coords t) ((dat1 V c).after 3 t) = _
  rw [after1_3]
  unfold out1_3
  rw [View.canon_unit_zero zero_offsets]
  simp only [View.ld_unit_zero (S := S5000x128) zero_offsets, View.ld_unit_zero (S := S128x128) zero_offsets, View.ld_unit_zero (S := S1x128) zero_offsets]
  funext j
  obtain ⟨p, q, rfl⟩ : ∃ (p : Fin 5000) (q : Fin 128), j = ix2 p q := ⟨j 0, j 1, eq_ix2 (n0 := 5000) (n1 := 128) j⟩
  have hN : cfg1.N = 20 := N_1
  have ht : t.val < 20 := hN ▸ t.isLt
  have hp : p.val < 5000 := p.isLt
  obtain ⟨r, hr⟩ : ∃ r : Fin 100000, r.val = t.val * 5000 + p.val := ⟨⟨t.val * 5000 + p.val, by omega⟩, rfl⟩
  rw [View.read_apply]
  show k1_pay1 (iblk1 V c 0 t) (iblk1 V c 1 t) (iblk1 V c 2 t) (ix2 p q)
    = Cert.Gcn.lin (V c main_v54) (V c main_v59) (V c main_v62) (((cfg1.win 3).blk t).view.emb (ix2 p q))
  rw [out_pos1 t p q r hr, Cert.Gcn.lin_apply]
  refine (pay1_apply _ _ _ p q).trans ?_
  unfold Cert.Gcn.linAt
  refine congrArg₂ (· + ·) (Finset.sum_congr rfl fun k _ => congrArg₂ (· * ·) ?_ ?_) ?_
  · exact rows_block1 V c t (ix2 p k) (ix2 r k) hr rfl
  · exact weights_block1 V c t (ix2 k q)
  · exact bias_block1 V c t (ix2 (0 : Fin 1) q)

/-- An index of the result array is in point `t`'s block iff each coordinate is in the block's range on its axis. -/
theorem mem_blk1 (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v63).slice (win1_3.rect t)).set ↔ _
  rw [View.set_slice_whole, Rect.mem_set_unit]
  exact Iff.rfl

/-- The twenty blocks tile the rows: row `r` is in the block of point `r / 5000`. -/
theorem cover1 (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 20 := N_1
  obtain ⟨t, ht⟩ : ∃ t : Fin cfg1.N, t.val = (i 0).val / 5000 := ⟨⟨(i 0).val / 5000, by rw [hN]; omega⟩, rfl⟩
  refine ⟨t, flush1_3 t, ?_⟩
  rw [mem_blk1]
  obtain ⟨-, -, -, -, -, -, e6, e7⟩ := idx_facts1 t
  intro a
  match a with
  | ⟨0, _⟩ => show win1_3.index t (0 : Fin 2) * 5000 ≤ (i 0).val ∧ (i 0).val < win1_3.index t (0 : Fin 2) * 5000 + 5000; rw [e7, ht]; omega
  | ⟨1, _⟩ => show win1_3.index t (1 : Fin 2) * 128 ≤ (i 1).val ∧ (i 1).val < win1_3.index t (1 : Fin 2) * 128 + 128; rw [e6]; omega

/-- The second call's result array after its twenty grid points. -/
theorem region1 (c : Dev nD) :
    (dat1 V c).arrAt 3 cfg1.N = Cert.Gcn.lin (V c main_v54) (V c main_v59) (V c main_v62) :=
  (dat1 V c).arrAt_eq_of_cover 3 _ (fun t _ => flushed1_eq V c t) cover1

end Cert.KernelIdeal.RegionValue

end
-- ==== Proof.Bridge.lean ====
/-
  The two Pallas calls against the reference's four matrix products. The first call computes `x · [W1 | Wf1] + [0 | bf1]`:
  its columns 0…63 are `x · W1` (a zero is added to each sum) and its columns 64…127 are `x · Wf1 + bf1`. The second
  computes `h · [W2 | Wf2 | 0] + [0 | bf2 | 0]`: column 0 is `h · W2`, column 1 is `h · Wf2 + bf2`. On the extended reals
  adding zero changes nothing, whatever the sum is, so no finiteness is needed.
-/
import proofs.«177942_j46574625358105_1_alg».proof.Proof.KOperands
import proofs.«177942_j46574625358105_1_alg».proof.Proof.Lin
import proofs.«177942_j46574625358105_1_alg».proof.Proof.RefRead
import Idealize.ShloMosaic.Lib.Pipeline.Value
import Idealize.ShloMosaic.Lib.ValueIdx
import Idealize.ShloMosaic.Lib.ValueLayout
import Idealize.ShloMosaic.PureOps.Ideal.Laws

noncomputable section

namespace Cert.Gcn.Bridge

open Cert.KernelIdeal Cert.KernelIdeal.Facts₀ Cert.KernelIdeal.Operands Idealize.ShloMosaic Idealize.ShloMosaic.ValueIdx

open scoped BigOperators

/-- Column `c` below 64 of `[W1 | Wf1]` is column `c` of `W1`. -/
theorem wcat1_lo (w1 wf1 : FVec Ideal S128x64 .f32) (k : Fin 128) (c : Fin 64) :
    wcat1 w1 wf1 (ix2 k (⟨c.val, by omega⟩ : Fin 128)) = w1 (ix2 k c) := by
  unfold wcat1
  refine concatenate_pair_apply_left (t := S128x128) (1 : Fin 2) w1 wf1 _ _ rfl (ix2 k c) (fun b => ?_)
  match b with
  | ⟨0, _⟩ => rfl
  | ⟨1, _⟩ => rfl

/-- Column `64 + c` of `[W1 | Wf1]` is column `c` of `Wf1`. -/
theorem wcat1_hi (w1 wf1 : FVec Ideal S128x64 .f32) (k : Fin 128) (c : Fin 64) :
    wcat1 w1 wf1 (ix2 k (⟨64 + c.val, by omega⟩ : Fin 128)) = wf1 (ix2 k c) := by
  unfold wcat1
  refine concatenate_pair_apply_right (t := S128x128) (1 : Fin 2) w1 wf1 _ _ rfl rfl (ix2 k c) (fun b hb => ?_) ?_
  · match b with
    | ⟨0, _⟩ => rfl
    | ⟨1, _⟩ => exact absurd rfl hb
  · show c.val + 64 = 64 + c.val
    omega

/-- Entry `c` below 64 of `[0 … 0 | bf1]` is zero. -/
theorem bcat1_lo (bf1 : FVec Ideal S64 .f32) (c : Fin 64) :
    bcat1 bf1 (ix2 (0 : Fin 1) (⟨c.val, by omega⟩ : Fin 128)) = 0 := by
  unfold bcat1
  refine (shapeCast_a_1a_apply _ _ 0 _).trans ?_
  refine (concatenate_pair_apply_left (t := S128) (s₁ := S64) (s₂ := S64) (0 : Fin 1) _ _ _ _ rfl (ix1 c) (fun b => ?_)).trans ?_
  · match b with
    | ⟨0, _⟩ => rfl
  refine (broadcastInDim_apply _ _ _ _ ix0 (fun a => a.elim0)).trans ?_
  rw [constant_apply, Ideal.ofBits_zero_f32]

/-- Entry `64 + c` of `[0 … 0 | bf1]` is entry `c` of `bf1`. -/
theorem bcat1_hi (bf1 : FVec Ideal S64 .f32) (c : Fin 64) :
    bcat1 bf1 (ix2 (0 : Fin 1) (⟨64 + c.val, by omega⟩ : Fin 128)) = bf1 (ix1 c) := by
  unfold bcat1
  refine (shapeCast_a_1a_apply _ _ 0 _).trans ?_
  refine concatenate_pair_apply_right (t := S128) (s₁ := S64) (s₂ := S64) (0 : Fin 1) _ _ _ _ rfl rfl (ix1 c) (fun b hb => ?_) ?_
  · match b with
    | ⟨0, _⟩ => exact absurd rfl hb
  · show c.val + 64 = 64 + c.val
    omega

/-- The first call's columns 0…63, entry by entry. -/
theorem slice1_lo_apply (x0 : FVec Ideal S100000x128 .f32) (x2 x4 : FVec Ideal S128x64 .f32) (x5 : FVec Ideal S64 .f32)
    (r : Fin 100000) (c : Fin 64) :
    extractStridedSlice S100000x64 ![0, 0] (Cert.Gcn.lin x0 (wcat1 x2 x4) (bcat1 x5)) slices_S100000x128_S100000x64_0_0 (ix2 r c)
      = ∑ k : Fin 128, x0 (ix2 r k) * x2 (ix2 k c) := by
  refine (extractStridedSlice_apply _ _ _ (ix2 r c) (ix2 r (⟨c.val, by omega⟩ : Fin 128)) (fun a => ?_)).trans ?_
  · match a with
    | ⟨0, _⟩ => show r.val = 0 + r.val; omega
    | ⟨1, _⟩ => show c.val = 0 + c.val; omega
  rw [Cert.Gcn.lin_apply]
  unfold Cert.Gcn.linAt
  rw [bcat1_lo, add_zero]
  refine Finset.sum_congr rfl fun k _ => ?_
  rw [wcat1_lo]

/-- The first call's columns 64…127, entry by entry. -/
theorem slice1_hi_apply (x0 : FVec Ideal S100000x128 .f32) (x2 x4 : FVec Ideal S128x64 .f32) (x5 : FVec Ideal S64 .f32)
    (r : Fin 100000) (c : Fin 64) :
    extractStridedSlice S100000x64 ![0, 64] (Cert.Gcn.lin x0 (wcat1 x2 x4) (bcat1 x5)) slices_S100000x128_S100000x64_0_64 (ix2 r c)
      = (∑ k : Fin 128, x0 (ix2 r k) * x4 (ix2 k c)) + x5 (ix1 c) := by
  refine (extractStridedSlice_apply _ _ _ (ix2 r c) (ix2 r (⟨64 + c.val, by omega⟩ : Fin 128)) (fun a => ?_)).trans ?_
  · match a with
    | ⟨0, _⟩ => show r.val = 0 + r.val; omega
    | ⟨1, _⟩ => rfl
  rw [Cert.Gcn.lin_apply]
  unfold Cert.Gcn.linAt
  rw [bcat1_hi]
  refine congrArg (· + x5 (ix1 c)) (Finset.sum_congr rfl fun k _ => ?_)
  rw [wcat1_hi]

/-- Column 0 of `[W2 | Wf2 | 0 … 0]` is `W2`. -/
theorem wpad2_0 (w2 wf2 : FVec Ideal S128x1 .f32) (k : Fin 128) :
    wpad2 w2 wf2 (ix2 k (0 : Fin 128)) = w2 (ix2 k (0 : Fin 1)) := by
  unfold wpad2
  refine (concatenate_pair_apply_left (t := S128x128) (s₁ := S128x2) (s₂ := S128x126) (1 : Fin 2) _ _ _ _ rfl
    (ix2 k (0 : Fin 2)) (fun b => ?_)).trans ?_
  · match b with
    | ⟨0, _⟩ => rfl
    | ⟨1, _⟩ => rfl
  refine concatenate_pair_apply_left (t := S128x2) (1 : Fin 2) w2 wf2 _ _ rfl (ix2 k (0 : Fin 1)) (fun b => ?_)
  match b with
  | ⟨0, _⟩ => rfl
  | ⟨1, _⟩ => rfl

/-- Column 1 of `[W2 | Wf2 | 0 … 0]` is `Wf2`. -/
theorem wpad2_1 (w2 wf2 : FVec Ideal S128x1 .f32) (k : Fin 128) :
    wpad2 w2 wf2 (ix2 k (1 : Fin 128)) = wf2 (ix2 k (0 : Fin 1)) := by
  unfold wpad2
  refine (concatenate_pair_apply_left (t := S128x128) (s₁ := S128x2) (s₂ := S128x126) (1 : Fin 2) _ _ _ _ rfl
    (ix2 k (1 : Fin 2)) (fun b => ?_)).trans ?_
  · match b with
    | ⟨0, _⟩ => rfl
    | ⟨1, _⟩ => rfl
  refine concatenate_pair_apply_right (t := S128x2) (1 : Fin 2) w2 wf2 _ _ rfl rfl (ix2 k (0 : Fin 1)) (fun b hb => ?_) rfl
  match b with
  | ⟨0, _⟩ => rfl
  | ⟨1, _⟩ => exact absurd rfl hb

/-- Entry 0 of `[0 | bf2 | 0 … 0]` is zero. -/
theorem bpad2_0 (bf2 : FVec Ideal S1 .f32) :
    bpad2 bf2 (ix2 (0 : Fin 1) (0 : Fin 128)) = 0 := by
  unfold bpad2
  refine (shapeCast_a_1a_apply _ _ 0 _).trans ?_
  refine (concatenate_pair_apply_left (t := S128) (s₁ := S2) (s₂ := S126) (0 : Fin 1) _ _ _ _ rfl (ix1 (0 : Fin 2)) (fun b => ?_)).trans ?_
  · match b with
    | ⟨0, _⟩ => rfl
  refine (concatenate_pair_apply_left (t := S2) (s₁ := S1) (s₂ := S1) (0 : Fin 1) _ _ _ _ rfl (ix1 (0 : Fin 1)) (fun b => ?_)).trans ?_
  · match b with
    | ⟨0, _⟩ => rfl
  refine (broadcastInDim_apply _ _ _ _ ix0 (fun a => a.elim0)).trans ?_
  rw [constant_apply, Ideal.ofBits_zero_f32]

/-- Entry 1 of `[0 | bf2 | 0 … 0]` is `bf2`'s one entry. -/
theorem bpad2_1 (bf2 : FVec Ideal S1 .f32) :
    bpad2 bf2 (ix2 (0 : Fin 1) (1 : Fin 128)) = bf2 (ix1 (0 : Fin 1)) := by
  unfold bpad2
  refine (shapeCast_a_1a_apply _ _ 0 _).trans ?_
  refine (concatenate_pair_apply_left (t := S128) (s₁ := S2) (s₂ := S126) (0 : Fin 1) _ _ _ _ rfl (ix1 (1 : Fin 2)) (fun b => ?_)).trans ?_
  · match b with
    | ⟨0, _⟩ => rfl
  refine concatenate_pair_apply_right (t := S2) (s₁ := S1) (s₂ := S1) (0 : Fin 1) _ _ _ _ rfl rfl (ix1 (0 : Fin 1)) (fun b hb => ?_) rfl
  match b with
  | ⟨0, _⟩ => exact absurd rfl hb

/-- The second call's column 0, entry by entry. -/
theorem slice2_lo_apply (h : FVec Ideal S100000x128 .f32) (x6 x8 : FVec Ideal S128x1 .f32) (x9 : FVec Ideal S1 .f32)
    (r : Fin 100000) :
    extractStridedSlice S100000x1 ![0, 0] (Cert.Gcn.lin h (wpad2 x6 x8) (bpad2 x9)) slices_S100000x128_S100000x1_0_0 (ix2 r (0 : Fin 1))
      = ∑ k : Fin 128, h (ix2 r k) * x6 (ix2 k (0 : Fin 1)) := by
  refine (extractStridedSlice_apply _ _ _ (ix2 r (0 : Fin 1)) (ix2 r (0 : Fin 128)) (fun a => ?_)).trans ?_
  · match a with
    | ⟨0, _⟩ => show r.val = 0 + r.val; omega
    | ⟨1, _⟩ => rfl
  rw [Cert.Gcn.lin_apply]
  unfold Cert.Gcn.linAt
  rw [bpad2_0, add_zero]
  refine Finset.sum_congr rfl fun k _ => ?_
  rw [wpad2_0]

/-- The second call's column 1, entry by entry. -/
theorem slice2_hi_apply (h : FVec Ideal S100000x128 .f32) (x6 x8 : FVec Ideal S128x1 .f32) (x9 : FVec Ideal S1 .f32)
    (r : Fin 100000) :
    extractStridedSlice S100000x1 ![0, 1] (Cert.Gcn.lin h (wpad2 x6 x8) (bpad2 x9)) slices_S100000x128_S100000x1_0_1 (ix2 r (0 : Fin 1))
      = (∑ k : Fin 128, h (ix2 r k) * x8 (ix2 k (0 : Fin 1))) + x9 (ix1 (0 : Fin 1)) := by
  refine (extractStridedSlice_apply _ _ _ (ix2 r (0 : Fin 1)) (ix2 r (1 : Fin 128)) (fun a => ?_)).trans ?_
  · match a with
    | ⟨0, _⟩ => show r.val = 0 + r.val; omega
    | ⟨1, _⟩ => rfl
  rw [Cert.Gcn.lin_apply]
  unfold Cert.Gcn.linAt
  rw [bpad2_1]
  refine congrArg (· + x9 (ix1 (0 : Fin 1))) (Finset.sum_congr rfl fun k _ => ?_)
  rw [wpad2_1]

/-- Columns 0…63 of the first call are the reference's `x · W1`. -/
theorem layer1_lo (x0 : FVec Ideal S100000x128 .f32) (x2 x4 : FVec Ideal S128x64 .f32) (x5 : FVec Ideal S64 .f32) :
    extractStridedSlice S100000x64 ![0, 0] (Cert.Gcn.lin x0 (wcat1 x2 x4) (bcat1 x5)) slices_S100000x128_S100000x64_0_0
      = Cert.ReferenceIdeal.ReadP.val_main_v30 (F := Ideal) x0 x2 := by
  funext i
  obtain ⟨r, c, rfl⟩ : ∃ (r : Fin 100000) (c : Fin 64), i = ix2 r c := ⟨i 0, i 1, eq_ix2 i⟩
  refine (slice1_lo_apply x0 x2 x4 x5 r c).trans ?_
  refine Eq.trans ?_ (Cert.ReferenceIdeal.ReadP.val_main_v30_apply x0 x2 (ix2 r c)).symm
  refine Finset.sum_congr rfl fun k _ => ?_
  have el : Cert.ReferenceIdeal.ReadP.lidx_main_v30 (ix2 r c) k = ix2 r k :=
    funext fun a => by
      match a with
      | ⟨0, _⟩ => rfl
      | ⟨1, _⟩ => rfl
  have er : Cert.ReferenceIdeal.ReadP.ridx_main_v30 (ix2 r c) k = ix2 k c :=
    funext fun a => by
      match a with
      | ⟨0, _⟩ => rfl
      | ⟨1, _⟩ => rfl
  rw [el, er]

/-- Columns 64…127 of the first call are the reference's `x · Wf1 + bf1`. -/
theorem layer1_hi (x0 : FVec Ideal S100000x128 .f32) (x2 x4 : FVec Ideal S128x64 .f32) (x5 : FVec Ideal S64 .f32) :
    extractStridedSlice S100000x64 ![0, 64] (Cert.Gcn.lin x0 (wcat1 x2 x4) (bcat1 x5)) slices_S100000x128_S100000x64_0_64
      = Cert.ReferenceIdeal.ReadP.val_main_v50 (F := Ideal) x0 x4 x5 := by
  funext i
  obtain ⟨r, c, rfl⟩ : ∃ (r : Fin 100000) (c : Fin 64), i = ix2 r c := ⟨i 0, i 1, eq_ix2 i⟩
  refine (slice1_hi_apply x0 x2 x4 x5 r c).trans ?_
  have e1 : (∑ k : Fin 128, x0 (ix2 r k) * x4 (ix2 k c))
      = Cert.ReferenceIdeal.ReadP.val_main_v47 (F := Ideal) x0 x4 (ix2 r c) := by
    refine Eq.trans ?_ (Cert.ReferenceIdeal.ReadP.val_main_v47_apply x0 x4 (ix2 r c)).symm
    refine Finset.sum_congr rfl fun k _ => ?_
    have el : Cert.ReferenceIdeal.ReadP.lidx_main_v47 (ix2 r c) k = ix2 r k :=
      funext fun a => by
        match a with
        | ⟨0, _⟩ => rfl
        | ⟨1, _⟩ => rfl
    have er : Cert.ReferenceIdeal.ReadP.ridx_main_v47 (ix2 r c) k = ix2 k c :=
      funext fun a => by
        match a with
        | ⟨0, _⟩ => rfl
        | ⟨1, _⟩ => rfl
    rw [el, er]
  have e2 : x5 (ix1 c) = Cert.ReferenceIdeal.ReadP.val_main_v49 (F := Ideal) x5 (ix2 r c) := by
    rw [Cert.ReferenceIdeal.ReadP.val_main_v49_apply, Cert.ReferenceIdeal.ReadP.val_main_v48_apply]
    exact congrArg x5 (funext fun a => by
      match a with
      | ⟨0, _⟩ => rfl)
  rw [e1, e2]
  exact (Cert.ReferenceIdeal.ReadP.val_main_v50_apply (F := Ideal) x0 x4 x5 (ix2 r c)).symm

/-- Column 0 of the second call is the reference's `h · W2`. -/
theorem layer2_lo (x0 : FVec Ideal S100000x128 .f32) (x1 : IVec S2x1600000 32) (x2 : FVec Ideal S128x64 .f32) (x3 : FVec Ideal S64 .f32)
    (x4 : FVec Ideal S128x64 .f32) (x5 : FVec Ideal S64 .f32) (x6 x8 : FVec Ideal S128x1 .f32) (x9 : FVec Ideal S1 .f32) :
    extractStridedSlice S100000x1 ![0, 0]
        (Cert.Gcn.lin (Cert.ReferenceIdeal.ReadP.val_main_v52 (F := Ideal) x0 x1 x2 x3 x4 x5) (wpad2 x6 x8) (bpad2 x9))
        slices_S100000x128_S100000x1_0_0
      = Cert.ReferenceIdeal.ReadP.val_main_v53 (F := Ideal) x0 x1 x2 x3 x4 x5 x6 := by
  funext i
  obtain ⟨r, c, rfl⟩ : ∃ (r : Fin 100000) (c : Fin 1), i = ix2 r c := ⟨i 0, i 1, eq_ix2 i⟩
  obtain rfl : c = 0 := Fin.fin_one_eq_zero c
  refine Eq.trans ?_ (Cert.ReferenceIdeal.ReadP.val_main_v53_apply x0 x1 x2 x3 x4 x5 x6 (ix2 r (0 : Fin 1))).symm
  generalize Cert.ReferenceIdeal.ReadP.val_main_v52 (F := Ideal) x0 x1 x2 x3 x4 x5 = h
  refine (slice2_lo_apply h x6 x8 x9 r).trans ?_
  refine Finset.sum_congr rfl fun k _ => ?_
  have el : Cert.ReferenceIdeal.ReadP.lidx_main_v53 (ix2 r (0 : Fin 1)) k = ix2 r k :=
    funext fun a => by
      match a with
      | ⟨0, _⟩ => rfl
      | ⟨1, _⟩ => rfl
  have er : Cert.ReferenceIdeal.ReadP.ridx_main_v53 (ix2 r (0 : Fin 1)) k = ix2 k (0 : Fin 1) :=
    funext fun a => by
      match a with
      | ⟨0, _⟩ => rfl
      | ⟨1, _⟩ => rfl
  rw [el, er]

/-- Column 1 of the second call is the reference's `h · Wf2 + bf2`. -/
theorem layer2_hi (x0 : FVec Ideal S100000x128 .f32) (x1 : IVec S2x1600000 32) (x2 : FVec Ideal S128x64 .f32) (x3 : FVec Ideal S64 .f32)
    (x4 : FVec Ideal S128x64 .f32) (x5 : FVec Ideal S64 .f32) (x6 x8 : FVec Ideal S128x1 .f32) (x9 : FVec Ideal S1 .f32) :
    extractStridedSlice S100000x1 ![0, 1]
        (Cert.Gcn.lin (Cert.ReferenceIdeal.ReadP.val_main_v52 (F := Ideal) x0 x1 x2 x3 x4 x5) (wpad2 x6 x8) (bpad2 x9))
        slices_S100000x128_S100000x1_0_1
      = Cert.ReferenceIdeal.ReadP.val_main_v72 (F := Ideal) x0 x1 x2 x3 x4 x5 x8 x9 := by
  funext i
  obtain ⟨r, c, rfl⟩ : ∃ (r : Fin 100000) (c : Fin 1), i = ix2 r c := ⟨i 0, i 1, eq_ix2 i⟩
  obtain rfl : c = 0 := Fin.fin_one_eq_zero c
  refine Eq.trans ?_ (Cert.ReferenceIdeal.ReadP.val_main_v72_apply (F := Ideal) x0 x1 x2 x3 x4 x5 x8 x9 (ix2 r (0 : Fin 1))).symm
  have e2 : x9 (ix1 (0 : Fin 1)) = Cert.ReferenceIdeal.ReadP.val_main_v71 (F := Ideal) x9 (ix2 r (0 : Fin 1)) := by
    rw [Cert.ReferenceIdeal.ReadP.val_main_v71_apply, Cert.ReferenceIdeal.ReadP.val_main_v70_apply]
    exact congrArg x9 (funext fun a => by
      match a with
      | ⟨0, _⟩ => rfl)
  rw [← e2, Cert.ReferenceIdeal.ReadP.val_main_v69_apply, Ideal.addf_def]
  generalize Cert.ReferenceIdeal.ReadP.val_main_v52 (F := Ideal) x0 x1 x2 x3 x4 x5 = h
  refine (slice2_hi_apply h x6 x8 x9 r).trans ?_
  refine congrArg (· + x9 (ix1 (0 : Fin 1))) (Finset.sum_congr rfl fun k _ => ?_)
  have el : Cert.ReferenceIdeal.ReadP.lidx_main_v69 (ix2 r (0 : Fin 1)) k = ix2 r k :=
    funext fun a => by
      match a with
      | ⟨0, _⟩ => rfl
      | ⟨1, _⟩ => rfl
  have er : Cert.ReferenceIdeal.ReadP.ridx_main_v69 (ix2 r (0 : Fin 1)) k = ix2 k (0 : Fin 1) :=
    funext fun a => by
      match a with
      | ⟨0, _⟩ => rfl
      | ⟨1, _⟩ => rfl
  rw [el, er]

end Cert.Gcn.Bridge

end
-- ==== Proof.KHost.lean ====
/-
  The kernel's result as a function of its arguments, on the extended reals: it is the reference's last stage
  `val_main_v74` of the same arguments. The run's buffer contents are followed boundary by boundary: the host operations
  before the first Pallas call (`StageA`), the call (its result array is the dense layer `Cert.Gcn.lin`, whose two halves
  are the reference's `x · W1` and `x · Wf1 + bf1`), the operations between the calls (`StageB`), the second call (columns 0
  and 1 of its result are the reference's `h · W2` and `h · Wf2 + bf2`), and the operations after it (`StageC`). The edge
  data (sources, targets, normalisation) are computed once, before the first call, and no later segment writes them.
-/
import proofs.«177942_j46574625358105_1_alg».proof.Proof.Gen.KernelIdeal.Frame
import proofs.«177942_j46574625358105_1_alg».proof.Proof.KHostA
import proofs.«177942_j46574625358105_1_alg».proof.Proof.KHostB
import proofs.«177942_j46574625358105_1_alg».proof.Proof.KHostC
import proofs.«177942_j46574625358105_1_alg».proof.Proof.KRegion
import proofs.«177942_j46574625358105_1_alg».proof.Proof.Bridge

noncomputable section

namespace Cert.KernelIdeal.HostValue

open Cert.KernelIdeal Cert.KernelIdeal.Gen Cert.KernelIdeal.Operands
open Idealize.ShloMosaic Idealize.ShloMosaic.TcCoe Idealize.SL.Sem Idealize.ShloMosaic.StableHlo
open Cert.ReferenceIdeal.ReadP

variable (m : (ℓ : Loc nD τ sig) → Buf (Elt Ideal) ℓ) (ρ : Dev nD → PrngReg) (c : Dev nD)

/-! ## At the first call's entry -/

theorem in0_x : W3 m ρ c (Proc.devRef .tc main_arg0) = (m ((c : Thread nD τ).loc main_arg0)) := StageA.keep_arg0 (W0 m ρ c)
theorem in0_w : W3 m ρ c (Proc.devRef .tc main_v30) = wcat1 (F := Ideal) (m ((c : Thread nD τ).loc main_arg2)) (m ((c : Thread nD τ).loc main_arg4)) := StageA.weights1 (W0 m ρ c) _ _ rfl rfl
theorem in0_b : W3 m ρ c (Proc.devRef .tc main_v33) = bcat1 (F := Ideal) (m ((c : Thread nD τ).loc main_arg5)) := StageA.bias1 (W0 m ρ c) _ rfl
theorem src3 : W3 m ρ c (Proc.devRef .tc main_v3) = val_main_v3 (F := Ideal) (m ((c : Thread nD τ).loc main_arg1)) := StageA.sources (W0 m ρ c) _ rfl
theorem tgt3 : W3 m ρ c (Proc.devRef .tc main_v6) = val_main_v6 (F := Ideal) (m ((c : Thread nD τ).loc main_arg1)) := StageA.targets (W0 m ρ c) _ rfl
theorem nrm3 : W3 m ρ c (Proc.devRef .tc main_v29) = val_main_v29 (F := Ideal) (m ((c : Thread nD τ).loc main_arg1)) := StageA.norm (W0 m ρ c) _ rfl
theorem arg3_3 : W3 m ρ c (Proc.devRef .tc main_arg3) = (m ((c : Thread nD τ).loc main_arg3)) := StageA.keep_arg3 (W0 m ρ c)
theorem arg6_3 : W3 m ρ c (Proc.devRef .tc main_arg6) = (m ((c : Thread nD τ).loc main_arg6)) := StageA.keep_arg6 (W0 m ρ c)
theorem arg7_3 : W3 m ρ c (Proc.devRef .tc main_arg7) = (m ((c : Thread nD τ).loc main_arg7)) := StageA.keep_arg7 (W0 m ρ c)
theorem arg8_3 : W3 m ρ c (Proc.devRef .tc main_arg8) = (m ((c : Thread nD τ).loc main_arg8)) := StageA.keep_arg8 (W0 m ρ c)
theorem arg9_3 : W3 m ρ c (Proc.devRef .tc main_arg9) = (m ((c : Thread nD τ).loc main_arg9)) := StageA.keep_arg9 (W0 m ρ c)

/-! ## At the first call's exit -/

/-- The first call's result array is the dense layer of the features, `[W1 | Wf1]` and `[0 | bf1]`. -/
theorem out0 : W4 m ρ c (Proc.devRef .tc main_v34) = Cert.Gcn.lin (m ((c : Thread nD τ).loc main_arg0)) (wcat1 (F := Ideal) (m ((c : Thread nD τ).loc main_arg2)) (m ((c : Thread nD τ).loc main_arg4))) (bcat1 (F := Ideal) (m ((c : Thread nD τ).loc main_arg5))) := by
  refine (W4_arr m ρ c 3).trans ((RegionValue.region0 (V3 m ρ) c).trans ?_)
  show Cert.Gcn.lin (W3 m ρ c (Proc.devRef .tc main_arg0)) (W3 m ρ c (Proc.devRef .tc main_v30)) (W3 m ρ c (Proc.devRef .tc main_v33)) = _
  rw [in0_x, in0_w, in0_b]

theorem src4 : W4 m ρ c (Proc.devRef .tc main_v3) = val_main_v3 (F := Ideal) (m ((c : Thread nD τ).loc main_arg1)) := (W4_of_ne m ρ c main_v3 (by decide)).trans (src3 m ρ c)
theorem tgt4 : W4 m ρ c (Proc.devRef .tc main_v6) = val_main_v6 (F := Ideal) (m ((c : Thread nD τ).loc main_arg1)) := (W4_of_ne m ρ c main_v6 (by decide)).trans (tgt3 m ρ c)
theorem nrm4 : W4 m ρ c (Proc.devRef .tc main_v29) = val_main_v29 (F := Ideal) (m ((c : Thread nD τ).loc main_arg1)) := (W4_of_ne m ρ c main_v29 (by decide)).trans (nrm3 m ρ c)
theorem arg3_4 : W4 m ρ c (Proc.devRef .tc main_arg3) = (m ((c : Thread nD τ).loc main_arg3)) := (W4_of_ne m ρ c main_arg3 (by decide)).trans (arg3_3 m ρ c)
theorem arg6_4 : W4 m ρ c (Proc.devRef .tc main_arg6) = (m ((c : Thread nD τ).loc main_arg6)) := (W4_of_ne m ρ c main_arg6 (by decide)).trans (arg6_3 m ρ c)
theorem arg7_4 : W4 m ρ c (Proc.devRef .tc main_arg7) = (m ((c : Thread nD τ).loc main_arg7)) := (W4_of_ne m ρ c main_arg7 (by decide)).trans (arg7_3 m ρ c)
theorem arg8_4 : W4 m ρ c (Proc.devRef .tc main_arg8) = (m ((c : Thread nD τ).loc main_arg8)) := (W4_of_ne m ρ c main_arg8 (by decide)).trans (arg8_3 m ρ c)
theorem arg9_4 : W4 m ρ c (Proc.devRef .tc main_arg9) = (m ((c : Thread nD τ).loc main_arg9)) := (W4_of_ne m ρ c main_arg9 (by decide)).trans (arg9_3 m ρ c)

/-! ## At the second call's entry -/

/-- The hidden features are the reference's. -/
theorem in1_h : W7 m ρ c (Proc.devRef .tc main_v54) = val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  StageB.hidden (W4 m ρ c) _ _ _ _ _ _
    (by rw [out0]; exact Cert.Gcn.Bridge.layer1_lo _ _ _ _) (by rw [out0]; exact Cert.Gcn.Bridge.layer1_hi _ _ _ _)
    (src4 m ρ c) (tgt4 m ρ c) (nrm4 m ρ c) (arg3_4 m ρ c)
theorem in1_w : W7 m ρ c (Proc.devRef .tc main_v59) = wpad2 (F := Ideal) (m ((c : Thread nD τ).loc main_arg6)) (m ((c : Thread nD τ).loc main_arg8)) := StageB.weights2 (W4 m ρ c) _ _ (arg6_4 m ρ c) (arg8_4 m ρ c)
theorem in1_b : W7 m ρ c (Proc.devRef .tc main_v62) = bpad2 (F := Ideal) (m ((c : Thread nD τ).loc main_arg9)) := StageB.bias2 (W4 m ρ c) _ (arg9_4 m ρ c)
theorem src7 : W7 m ρ c (Proc.devRef .tc main_v3) = val_main_v3 (F := Ideal) (m ((c : Thread nD τ).loc main_arg1)) := (StageB.keep_v3 (W4 m ρ c)).trans (src4 m ρ c)
theorem tgt7 : W7 m ρ c (Proc.devRef .tc main_v6) = val_main_v6 (F := Ideal) (m ((c : Thread nD τ).loc main_arg1)) := (StageB.keep_v6 (W4 m ρ c)).trans (tgt4 m ρ c)
theorem nrm7 : W7 m ρ c (Proc.devRef .tc main_v29) = val_main_v29 (F := Ideal) (m ((c : Thread nD τ).loc main_arg1)) := (StageB.keep_v29 (W4 m ρ c)).trans (nrm4 m ρ c)
theorem arg7_7 : W7 m ρ c (Proc.devRef .tc main_arg7) = (m ((c : Thread nD τ).loc main_arg7)) := (StageB.keep_arg7 (W4 m ρ c)).trans (arg7_4 m ρ c)

/-! ## At the second call's exit -/

/-- The second call's result array is the dense layer of the hidden features, `[W2 | Wf2 | 0]` and `[0 | bf2 | 0]`. -/
theorem out1 : W8 m ρ c (Proc.devRef .tc main_v63)
    = Cert.Gcn.lin (val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (wpad2 (F := Ideal) (m ((c : Thread nD τ).loc main_arg6)) (m ((c : Thread nD τ).loc main_arg8))) (bpad2 (F := Ideal) (m ((c : Thread nD τ).loc main_arg9))) := by
  refine (W8_arr m ρ c 3).trans ((RegionValue.region1 (V7 m ρ) c).trans ?_)
  show Cert.Gcn.lin (W7 m ρ c (Proc.devRef .tc main_v54)) (W7 m ρ c (Proc.devRef .tc main_v59)) (W7 m ρ c (Proc.devRef .tc main_v62)) = _
  rw [in1_h, in1_w, in1_b]

theorem src8 : W8 m ρ c (Proc.devRef .tc main_v3) = val_main_v3 (F := Ideal) (m ((c : Thread nD τ).loc main_arg1)) := (W8_of_ne m ρ c main_v3 (by decide)).trans (src7 m ρ c)
theorem tgt8 : W8 m ρ c (Proc.devRef .tc main_v6) = val_main_v6 (F := Ideal) (m ((c : Thread nD τ).loc main_arg1)) := (W8_of_ne m ρ c main_v6 (by decide)).trans (tgt7 m ρ c)
theorem nrm8 : W8 m ρ c (Proc.devRef .tc main_v29) = val_main_v29 (F := Ideal) (m ((c : Thread nD τ).loc main_arg1)) := (W8_of_ne m ρ c main_v29 (by decide)).trans (nrm7 m ρ c)
theorem arg7_8 : W8 m ρ c (Proc.devRef .tc main_arg7) = (m ((c : Thread nD τ).loc main_arg7)) := (W8_of_ne m ρ c main_arg7 (by decide)).trans (arg7_7 m ρ c)

/-! ## The result -/

/-- The kernel's result array is the reference's last stage of the same arguments. -/
theorem result_value : W9 m ρ c (Proc.devRef .tc main_v82) = val_main_v74 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  StageC.result (W8 m ρ c) _ _ _ _ _ _ _ _ _ _
    (by rw [out1]; exact Cert.Gcn.Bridge.layer2_lo _ _ _ _ _ _ _ _ _) (by rw [out1]; exact Cert.Gcn.Bridge.layer2_hi _ _ _ _ _ _ _ _ _)
    (src8 m ρ c) (tgt8 m ρ c) (nrm8 m ρ c) (arg7_8 m ρ c)

end Cert.KernelIdeal.HostValue

end
-- ==== Proof.lean ====
/-
  The certificate of a two-layer graph convolution whose two dense projections run as Pallas calls.
  The kernel joins each layer's two weight matrices side by side (the second layer's two columns padded to 128) and
  computes `x · [W | Wf] + [0 | bf]` in one call per layer, twenty blocks of 5000 rows; the host code around the calls
  (degrees, symmetric normalisation, gather by source, scatter-add by target, biases, rectifier) is the reference's,
  operation for operation. On the extended reals the half (or column) of a call's result under a zero bias is the
  reference's plain product — adding zero changes no extended real — and the other is the reference's product plus
  bias, so the two programs end with the same array. No finiteness of the inputs is used.
  The frames of the two kernel programs are the generated ones; the reference's frame is its run with the result
  dropped; the idealization rewrote nothing, so `preserves` asks nothing.
-/
import proofs.«177942_j46574625358105_1_alg».proof.Defs
import proofs.«177942_j46574625358105_1_alg».proof.Proof.Gen.Kernel
import proofs.«177942_j46574625358105_1_alg».proof.Proof.Gen.Kernel.Frame
import proofs.«177942_j46574625358105_1_alg».proof.Proof.Gen.KernelIdeal
import proofs.«177942_j46574625358105_1_alg».proof.Proof.Gen.KernelIdeal.Frame
import proofs.«177942_j46574625358105_1_alg».proof.Proof.Gen.ReferenceIdeal
import proofs.«177942_j46574625358105_1_alg».proof.Proof.Gen.Pre_finite_inputs
import proofs.«177942_j46574625358105_1_alg».proof.Proof.RefRun
import proofs.«177942_j46574625358105_1_alg».proof.Proof.RefRead
import proofs.«177942_j46574625358105_1_alg».proof.Proof.KRun
import proofs.«177942_j46574625358105_1_alg».proof.Proof.KHost

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run, the result forgotten. -/
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end at the reference's last stage of the (agreeing) arguments. -/
theorem algebraic : Cert.algebraic_KernelIdeal_ReferenceIdeal := by
  intro m ρ m' ρ' _ hagree
  refine ⟨fun c => Cert.ReferenceIdeal.ReadP.val_main_v74 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.HostValue.result_value m ρ c), (h c).2⟩)
      (Cert.KernelIdeal.GenRun.run_named (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v74_eq]
    obtain ⟨e0, e1, e2, e3, e4, e5, e6, e7, e8, e9⟩ := hagree c
    rw [e0, e1, e2, e3, e4, e5, e6, e7, e8, e9]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
